-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x64 : Shape := ⟨2, ![1000, 64]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_

variable [Facts]

def fn {F : FTy → Type} [FloatOps F] (main_arg0 : FVec F S16384x1000 .f32) (main_arg1 : FVec F S1000x64 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x64 .f32 := Host.absf main_arg1
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  main_v8
-- ==== Kernel.lean ====
abbrev S16384x1000 : Shape := ⟨2, ![16384, 1000]⟩
abbrev S1000x64 : Shape := ⟨2, ![1000, 64]⟩
abbrev S16384x64 : Shape := ⟨2, ![16384, 64]⟩
abbrev S512x1000 : Shape := ⟨2, ![512, 1000]⟩
abbrev S2048x64 : Shape := ⟨2, ![2048, 64]⟩
abbrev S512 : Shape := ⟨1, ![512]⟩
abbrev S512x1 : Shape := ⟨2, ![512, 1]⟩
abbrev S512x64 : Shape := ⟨2, ![512, 64]⟩

abbrev nBuf : Space → Nat
  | .hbm => 3
  | .vmem => 11
  | .smem => 0
  | _ => 0

abbrev bufTy : (tb : Table) → Fin (tcTables nBuf tb) → BufTy
  | .hbm, ⟨0, _⟩ => ⟨S16384x1000, .f32⟩
  | .hbm, ⟨1, _⟩ => ⟨S1000x64, .f32⟩
  | .hbm, ⟨2, _⟩ => ⟨S16384x64, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S512x1000, .f32⟩
  | .local _ .vmem, ⟨5, _⟩ => ⟨S512x1000, .f32⟩
  | .local _ .vmem, ⟨6, _⟩ => ⟨S512x1000, .f32⟩
  | .local _ .vmem, ⟨7, _⟩ => ⟨S512x1000, .f32⟩
  | .local _ .vmem, ⟨8, _⟩ => ⟨S1000x64, .f32⟩
  | .local _ .vmem, ⟨9, _⟩ => ⟨S2048x64, .f32⟩
  | .local _ .vmem, ⟨10, _⟩ => ⟨S2048x64, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1000x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1000x64_S1000x64_0_0 : ∀ a, (![0, 0] : Fin 2 → Nat) a + S1000x64.size a ≤ S1000x64.size a
  h_S1000x64 : 0 < S1000x64.numel
  inb_S512x1000_S512x1000_0_0 : ∀ a, (![0, 0] : Fin 2 → Nat) a + S512x1000.size a ≤ S512x1000.size a
  h_S512x1000 : 0 < S512x1000.numel
  natLt_1_32 : 1 < 32
  reduces_S512x1000_S512 : S512x1000.Reduces [1] S512
  shapeCasts_S512_S512x1 : S512.ShapeCasts S512x1
  broadcasts_S512x1_S512x64 : S512x1.Broadcasts S512x64
  inb_S2048x64_S512x64_0_0 : ∀ a, (![0, 0] : Fin 2 → Nat) a + S512x64.size a ≤ S2048x64.size a
  h_S512x64 : 0 < S512x64.numel
  inb_S2048x64_S512x64_512_0 : ∀ a, (![512, 0] : Fin 2 → Nat) a + S512x64.size a ≤ S2048x64.size a
  inb_S2048x64_S512x64_1024_0 : ∀ a, (![1024, 0] : Fin 2 → Nat) a + S512x64.size a ≤ S2048x64.size a
  inb_S2048x64_S512x64_1536_0 : ∀ a, (![1536, 0] : Fin 2 → Nat) a + S512x64.size a ≤ S2048x64.size a
  dot_S512x1000_S1000x64_S512x64_1_0_0_1_n_n_wf : DotDims.WF S512x1000 S1000x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S16384x1000.size a
  hwx0_0 : ∀ i : grid0.Coords, EltTy.bits .f32 = 32 ∨ (Rect.block (s := S16384x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S16384x1000.size a
  hwx0_1 : ∀ i : grid0.Coords, EltTy.bits .f32 = 32 ∨ (Rect.block (s := S16384x1000) S512x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1000.size a ≤ S16384x1000.size a
  hwx0_2 : ∀ i : grid0.Coords, EltTy.bits .f32 = 32 ∨ (Rect.block (s := S16384x1000) S512x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S16384x1000.size a
  hwx0_3 : ∀ i : grid0.Coords, EltTy.bits .f32 = 32 ∨ (Rect.block (s := S16384x1000) S512x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x64.size a ≤ S1000x64.size a
  hwx0_4 : ∀ i : grid0.Coords, EltTy.bits .f32 = 32 ∨ (Rect.block (s := S1000x64) S1000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .f32 = 32 ∨ (Rect.block (s := S16384x64) S2048x64.size (cc0_transform_5 i) (hinb0_5 i)).WholeWords (EltTy.packing .f32)

variable [Facts₀]

def dot_S512x1000_S1000x64_S512x64_1_0_0_1_n_n : DotDims S512x1000 S1000x64 S512x64 where
  lhsContracting := [1]
  rhsContracting := [0]
  lhsNonContracting := [0]
  rhsNonContracting := [1]
  lhsBatch := []
  rhsBatch := []
  wf := dot_S512x1000_S1000x64_S512x64_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1000x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x64 : Shape := ⟨2, ![1000, 64]⟩
abbrev S_ : Shape := ⟨0, ![]⟩
abbrev S16384 : Shape := ⟨1, ![16384]⟩
abbrev S16384x1 : Shape := ⟨2, ![16384, 1]⟩
abbrev S16384x64 : Shape := ⟨2, ![16384, 64]⟩

abbrev nBuf : Space → Nat
  | .hbm => 22
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x64, .f32⟩
  | .hbm, ⟨2, _⟩ => ⟨S_, .f32⟩
  | .hbm, ⟨3, _⟩ => ⟨S16384x1000, .f32⟩
  | .hbm, ⟨4, _⟩ => ⟨S16384x1000, .i1⟩
  | .hbm, ⟨5, _⟩ => ⟨S16384x1000, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x64, .f32⟩
  | .hbm, ⟨10, _⟩ => ⟨S_, .f32⟩
  | .hbm, ⟨11, _⟩ => ⟨S16384x1, .f32⟩
  | .hbm, ⟨12, _⟩ => ⟨S16384x1, .i1⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .i1⟩
  | .hbm, ⟨21, _⟩ => ⟨S16384x64, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S16384x1000 : S_.BroadcastsInDim S16384x1000 (![] : Fin 0 → Fin S16384x1000.rank)
  reducesTo_S16384x1000_S16384_d1 : S16384x1000.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  bcast_S_S16384x64 : S_.BroadcastsInDim S16384x64 (![] : Fin 0 → Fin S16384x64.rank)
  dot_S16384x1000_S1000x64_S16384x64_1_0_0_1_n_n_wf : DotDims.WF S16384x1000 S1000x64 S16384x64 [1] [0] [0] [1] [] []

variable [Facts₀]

def dot_S16384x1000_S1000x64_S16384x64_1_0_0_1_n_n : DotDims S16384x1000 S1000x64 S16384x64 where
  lhsContracting := [1]
  rhsContracting := [0]
  lhsNonContracting := [0]
  rhsNonContracting := [1]
  lhsBatch := []
  rhsBatch := []
  wf := dot_S16384x1000_S1000x64_S16384x64_1_0_0_1_n_n_wf

class Facts : Prop extends Facts₀ where

variable [Facts]
-- ==== Proof.KernelBody.lean ====
import proofs.«181696_g53163105190342_cont_9to1_m_607_4_alg».proof.Proof.Gen.Kernel.Launch
import proofs.«181696_g53163105190342_cont_9to1_m_607_4_alg».proof.Proof.Gen.Kernel.Skeleton
import proofs.«181696_g53163105190342_cont_9to1_m_607_4_alg».proof.Proof.Gen.Kernel.Points
import Idealize.ShloMosaic.Lib.Pipeline.FrameBody
import Idealize.ShloMosaic.Lib.Ring
import Idealize.ShloMosaic.Lib.Tactic

/-!
# The kernel body at one grid point, and the proof data of its pipeline

The pallas_call has six windows on a grid of eight points. Windows 0 to 3 are four views of ONE array, the
flags matrix f32[16384, 1000], each a block of 512 rows: at point `t` window `j` holds the rows
`512 * (4 * t + j) .. 512 * (4 * t + j) + 511`. Window 4 is the whole embedding table f32[1000, 64], fetched once.
Window 5 is the result's block of 2048 rows, rows `2048 * t ..`, written back at every point.

The body loads the table and the four flag blocks whole, and stores four 512-row pieces into the result's buffer,
at row offsets 0, 512, 1024 and 1536: piece `j` is a function of the table and of flag block `j` alone. The four
pieces tile the buffer, so what the buffer holds afterwards is the canonical contents of those four writes, whatever
it held before (the body also loads each piece's rows before storing them; nothing reads those loads).

Between points the body keeps nothing: the invariant is empty and the core owes nothing. The flags array is held at
four quarter shares, one per window that reads it; the table and the result are held whole.
-/

-- membership in a rectangle of these extents is decided by a structural look that recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and each window's block at a point -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data whose array is `V`'s and whose body leaves the block in
    place. The windows are uncut and never idle. One statement per input window: the four flag windows and the table's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A flag block, whole. -/
abbrev rFlags : Rect S512x1000 := Rect.unit (s := S512x1000) ![0, 0] S512x1000.size inb_S512x1000_S512x1000_0_0
/-- The table, whole. -/
abbrev rTable : Rect S1000x64 := Rect.unit (s := S1000x64) ![0, 0] S1000x64.size inb_S1000x64_S1000x64_0_0
/-- The four 512-row pieces of the result's block. -/
abbrev rOut0 : Rect S2048x64 := Rect.unit (s := S2048x64) ![0, 0] S512x64.size inb_S2048x64_S512x64_0_0
abbrev rOut1 : Rect S2048x64 := Rect.unit (s := S2048x64) ![512, 0] S512x64.size inb_S2048x64_S512x64_512_0
abbrev rOut2 : Rect S2048x64 := Rect.unit (s := S2048x64) ![1024, 0] S512x64.size inb_S2048x64_S512x64_1024_0
abbrev rOut3 : Rect S2048x64 := Rect.unit (s := S2048x64) ![1536, 0] S512x64.size inb_S2048x64_S512x64_1536_0

/-! ## What the body leaves in the result's buffer -/

/-- The result's staging buffer after the body, from the four flag blocks and the table: its four stores as pieces,
    the last store first. -/
def out0_5 (x0 x1 x2 x3 : Vec F S512x1000 .f32) (x4 : Vec F S1000x64 .f32) : Vec F S2048x64 .f32 :=
  View.canon [⟨rOut3, k0_pay2 (View.ld x4 rTable) (View.ld x3 rFlags)⟩,
    ⟨rOut2, k0_pay1 (View.ld x4 rTable) (k0_pay5 (View.ld x2 rFlags)) (k0_pay6 (View.ld x2 rFlags)) (constant S512x64 .f32 0x00000000#32)⟩,
    ⟨rOut1, k0_pay4 (View.ld x4 rTable) (View.ld x1 rFlags)⟩,
    ⟨rOut0, k0_pay3 (View.ld x4 rTable) (View.ld x0 rFlags)⟩]

/-- The four pieces tile the buffer (512 rows each, at rows 0, 512, 1024, 1536), so they cover it. -/
theorem cover0_5 (p3 p2 p1 p0 : Vec F S512x64 .f32) (y : S2048x64.Idx) :
    ∃ pc ∈ ([⟨rOut3, p3⟩, ⟨rOut2, p2⟩, ⟨rOut1, p1⟩, ⟨rOut0, p0⟩] : List (View.Piece (Elt F) S2048x64 .f32)), y ∈ pc.1.set :=
  View.cover_of_tiled [⟨rOut3, p3⟩, ⟨rOut2, p2⟩, ⟨rOut1, p1⟩, ⟨rOut0, p0⟩] S512x64.size (by rfl) y

/-! ## The body's triple -/

set_option maxHeartbeats 4000000 in
/-- The kernel body on whole staging memrefs, the five inputs' at read contents `x0 … x4` and the result's at anything,
    runs to the continuation holding the inputs' as they were and the result's at `out0_5` of the inputs'. -/
theorem sound_kernel (c : Dev nD) (E : Set ℕ) (i : grid0.Coords)
    (arg1 : Memref sig .tc .vmem S512x1000 .f32) (harg1 : arg1.IsWhole) (arg2 : Memref sig .tc .vmem S512x1000 .f32) (harg2 : arg2.IsWhole)
    (arg3 : Memref sig .tc .vmem S512x1000 .f32) (harg3 : arg3.IsWhole) (arg4 : Memref sig .tc .vmem S512x1000 .f32) (harg4 : arg4.IsWhole)
    (arg5 : Memref sig .tc .vmem S1000x64 .f32) (harg5 : arg5.IsWhole) (arg6 : Memref sig .tc .vmem S2048x64 .f32) (harg6 : arg6.IsWhole)
    (x0 x1 x2 x3 : Vec F S512x1000 .f32) (x4 : Vec F S1000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__fbe_block i arg1 harg1 arg2 harg2 arg3 harg3 arg4 harg4 arg5 harg5 arg6 harg6) K := by
  simp only [cc0__fbe_block_eq_skeleton]; unfold cc0__fbe_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _ _ _ _)

/-! ## The pipeline's proof data -/

/-- The proof data of the one pipeline on core `c`: the arrays as the region finds them; after the body at point `t`
    each input's buffer at its block and the result's at `out0_5` of the input blocks; no invariant; nothing owed. The
    flags array is read by four windows and is held at four quarter shares, one per window; the table is held whole
    (and the result, an output, is held whole whatever is said here). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the (empty) invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
import proofs.«181696_g53163105190342_cont_9to1_m_607_4_alg».proof.Proof.KernelBody
import Idealize.ShloMosaic.Lib.Pipeline.Kit

/-!
# The run of the program: the launch, by the library's theorem for windows that share an array

The program is the one kernel region. The library's launch theorem for a kernel with no semaphore of its own whose
windows may share arrays takes, beside the body obligation, how the three buffers behind the six windows' arrays —
each whole, at the full share — make the proof data's arrays at entry: the flags buffer, read by four windows, is
split into its four quarter shares (halved, and each half halved again); the table's and the result's buffers are
handed over whole. The post reads every window's array at what the library computes from the proof data after the
last write-back; the two argument arrays are inputs, never written, so they end as they began.
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The rounds library's launch element: every staging cell's owner at round 0 and a duty token for every transfer
    the pipeline issues. -/
def u₀ : UR sig nD τ := initOf (Pipeline.cells cfgs cellOf_inj) (Pipeline.launchToks cfgs cellOf_inj)

/-! ## The arrays at entry, from the buffers behind them -/

/-- The three buffers behind the windows' arrays, each whole at the full share, make the six windows' arrays at the
    shares the proof data names: the flags buffer's full share is its left and right halves, and each half its own
    left and right halves — the four windows' quarters. -/
theorem arrays_of_arrBufs (c : Dev nD) :
    (Pipeline.arrBufs spec0 c (V m c) : sProp 𝕄) ⊢ (dats m 0 c).arrays ((dats m 0 c).arrAt · 0) := by
  unfold Pipeline.arrBufs Dat.arrays
  rw [bigSep_W0, BI.bigSep_eq_bigSepL_of_eq [main_arg0, main_arg1, main_v0] (by decide) (by decide)]
  simp only [BI.bigSepL_cons_cons, BI.bigSepL_singleton]
  rw [(arr_whole0 0).set_eq_univ, (arr_whole0 4).set_eq_univ, (arr_whole0 5).set_eq_univ]
  change iprop((((c : Thread nD τ).loc main_arg0) ↦{fullShare} V m c main_arg0) ∗ (((c : Thread nD τ).loc main_arg1) ↦{fullShare} V m c main_arg1)
      ∗ (((c : Thread nD τ).loc main_v0) ↦{fullShare} V m c main_v0))
    ⊢ iprop((((c : Thread nD τ).loc main_arg0) ↦{fullShare.left.left} V m c main_arg0) ∗ (((c : Thread nD τ).loc main_arg0) ↦{fullShare.left.right} V m c main_arg0)
      ∗ (((c : Thread nD τ).loc main_arg0) ↦{fullShare.right.left} V m c main_arg0) ∗ (((c : Thread nD τ).loc main_arg0) ↦{fullShare.right.right} V m c main_arg0)
      ∗ (((c : Thread nD τ).loc main_arg1) ↦{fullShare} V m c main_arg1) ∗ (((c : Thread nD τ).loc main_v0) ↦{fullShare} V m c main_v0))
  iintro ⟨H0, H1, H2⟩
  ihave H0 := (pointsTo_share (PosShare.mem_left_op_right fullShare)).1 $$ H0
  icases H0 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [Hll]; · iexact Hll
  isplitl [Hlr]; · iexact Hlr
  isplitl [Hrl]; · iexact Hrl
  isplitl [Hrr]; · iexact Hrr
  isplitl [H1]; · iexact H1
  iexact H2

/-! ## The launch -/

/-- An array's contents after the run, as the library computes them from the proof data. -/
def finalA (c : Dev nD) (w : Fin cfg0.W) : Buf (Elt F) ((cfg0.win w).arr.view.loc (c : Thread nD τ)) :=
  (dats m 0 c).arrAt w cfg0.N

/-- The physical post: every window's array holds what the library computes it holds after the last write-back. -/
def QC : PUnit × MemSt nD τ sig (Elt F) → Prop := fun r =>
  ∀ (c : Dev nD) (w : Fin cfg0.W), r.2.mem ((cfg0.win w).arr.view.loc (c : Thread nD τ)) = finalA m c w

-- the launch theorem's implicit arguments are found by unifying its conclusion with this one, which takes unfolding plain
-- definitions in a metavariable's type
set_option backward.isDefEq.respectTransparency.types false in
/-- At the compiled mesh, for any float values, from any memory whose semaphore counters are zero: every weakly fair
    execution of the program terminates, nothing faults, and every window's array ends at the computed contents. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := arrays_of_arrBufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- info: 'Cert.Kernel.Hand.run_main' depends on axioms: [propext, Classical.choice, Quot.sound] -/
#guard_msgs in #print axioms run_main

/-! ## The frame -/

/-- The flags array (read through window 0, as through windows 1 to 3) and the table (window 4) are inputs: after
    the run they hold what they held. -/
theorem finalA_flags (c : Dev nD) : finalA m c (0 : Fin 6) = m ((c : Thread nD τ).loc main_arg0) :=
  ((dats (F := F) m 0 c).arrAt_in (0 : Fin 6) rfl _).trans (A_eq m c 0)
theorem finalA_table (c : Dev nD) : finalA m c (4 : Fin 6) = m ((c : Thread nD τ).loc main_arg1) :=
  ((dats (F := F) m 0 c).arrAt_in (4 : Fin 6) rfl _).trans (A_eq m c 4)

/-- The frame claim's statement, at any float instance: the program runs to the end, nothing faults, and its two
    argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (0 : Fin 6)).trans (finalA_flags m c), (h c (4 : Fin 6)).trans (finalA_table m c)⟩)
    (run_main m ρ)

end Cert.Kernel.Hand

end
-- ==== Proof.KernelIdealBody.lean ====
import proofs.«181696_g53163105190342_cont_9to1_m_607_4_alg».proof.Proof.Gen.KernelIdeal.Launch
import proofs.«181696_g53163105190342_cont_9to1_m_607_4_alg».proof.Proof.Gen.KernelIdeal.Skeleton
import proofs.«181696_g53163105190342_cont_9to1_m_607_4_alg».proof.Proof.Gen.KernelIdeal.Points
import Idealize.ShloMosaic.Lib.Pipeline.FrameBody
import Idealize.ShloMosaic.Lib.Ring
import Idealize.ShloMosaic.Lib.Tactic

/-!
# The kernel body at one grid point, and the proof data of its pipeline

The pallas_call has six windows on a grid of eight points. Windows 0 to 3 are four views of ONE array, the
flags matrix f32[16384, 1000], each a block of 512 rows: at point `t` window `j` holds the rows
`512 * (4 * t + j) .. 512 * (4 * t + j) + 511`. Window 4 is the whole embedding table f32[1000, 64], fetched once.
Window 5 is the result's block of 2048 rows, rows `2048 * t ..`, written back at every point.

The body loads the table and the four flag blocks whole, and stores four 512-row pieces into the result's buffer,
at row offsets 0, 512, 1024 and 1536: piece `j` is a function of the table and of flag block `j` alone. The four
pieces tile the buffer, so what the buffer holds afterwards is the canonical contents of those four writes, whatever
it held before (the body also loads each piece's rows before storing them; nothing reads those loads).

Between points the body keeps nothing: the invariant is empty and the core owes nothing. The flags array is held at
four quarter shares, one per window that reads it; the table and the result are held whole.
-/

-- membership in a rectangle of these extents is decided by a structural look that recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and each window's block at a point -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data whose array is `V`'s and whose body leaves the block in
    place. The windows are uncut and never idle. One statement per input window: the four flag windows and the table's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A flag block, whole. -/
abbrev rFlags : Rect S512x1000 := Rect.unit (s := S512x1000) ![0, 0] S512x1000.size inb_S512x1000_S512x1000_0_0
/-- The table, whole. -/
abbrev rTable : Rect S1000x64 := Rect.unit (s := S1000x64) ![0, 0] S1000x64.size inb_S1000x64_S1000x64_0_0
/-- The four 512-row pieces of the result's block. -/
abbrev rOut0 : Rect S2048x64 := Rect.unit (s := S2048x64) ![0, 0] S512x64.size inb_S2048x64_S512x64_0_0
abbrev rOut1 : Rect S2048x64 := Rect.unit (s := S2048x64) ![512, 0] S512x64.size inb_S2048x64_S512x64_512_0
abbrev rOut2 : Rect S2048x64 := Rect.unit (s := S2048x64) ![1024, 0] S512x64.size inb_S2048x64_S512x64_1024_0
abbrev rOut3 : Rect S2048x64 := Rect.unit (s := S2048x64) ![1536, 0] S512x64.size inb_S2048x64_S512x64_1536_0

/-! ## What the body leaves in the result's buffer -/

/-- The result's staging buffer after the body, from the four flag blocks and the table: its four stores as pieces,
    the last store first. -/
def out0_5 (x0 x1 x2 x3 : Vec F S512x1000 .f32) (x4 : Vec F S1000x64 .f32) : Vec F S2048x64 .f32 :=
  View.canon [⟨rOut3, k0_pay2 (View.ld x4 rTable) (View.ld x3 rFlags)⟩,
    ⟨rOut2, k0_pay1 (View.ld x4 rTable) (k0_pay5 (View.ld x2 rFlags)) (k0_pay6 (View.ld x2 rFlags)) (constant S512x64 .f32 0x00000000#32)⟩,
    ⟨rOut1, k0_pay4 (View.ld x4 rTable) (View.ld x1 rFlags)⟩,
    ⟨rOut0, k0_pay3 (View.ld x4 rTable) (View.ld x0 rFlags)⟩]

/-- The four pieces tile the buffer (512 rows each, at rows 0, 512, 1024, 1536), so they cover it. -/
theorem cover0_5 (p3 p2 p1 p0 : Vec F S512x64 .f32) (y : S2048x64.Idx) :
    ∃ pc ∈ ([⟨rOut3, p3⟩, ⟨rOut2, p2⟩, ⟨rOut1, p1⟩, ⟨rOut0, p0⟩] : List (View.Piece (Elt F) S2048x64 .f32)), y ∈ pc.1.set :=
  View.cover_of_tiled [⟨rOut3, p3⟩, ⟨rOut2, p2⟩, ⟨rOut1, p1⟩, ⟨rOut0, p0⟩] S512x64.size (by rfl) y

/-! ## The body's triple -/

set_option maxHeartbeats 4000000 in
/-- The kernel body on whole staging memrefs, the five inputs' at read contents `x0 … x4` and the result's at anything,
    runs to the continuation holding the inputs' as they were and the result's at `out0_5` of the inputs'. -/
theorem sound_kernel (c : Dev nD) (E : Set ℕ) (i : grid0.Coords)
    (arg1 : Memref sig .tc .vmem S512x1000 .f32) (harg1 : arg1.IsWhole) (arg2 : Memref sig .tc .vmem S512x1000 .f32) (harg2 : arg2.IsWhole)
    (arg3 : Memref sig .tc .vmem S512x1000 .f32) (harg3 : arg3.IsWhole) (arg4 : Memref sig .tc .vmem S512x1000 .f32) (harg4 : arg4.IsWhole)
    (arg5 : Memref sig .tc .vmem S1000x64 .f32) (harg5 : arg5.IsWhole) (arg6 : Memref sig .tc .vmem S2048x64 .f32) (harg6 : arg6.IsWhole)
    (x0 x1 x2 x3 : Vec F S512x1000 .f32) (x4 : Vec F S1000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__fbe_block i arg1 harg1 arg2 harg2 arg3 harg3 arg4 harg4 arg5 harg5 arg6 harg6) K := by
  simp only [cc0__fbe_block_eq_skeleton]; unfold cc0__fbe_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _ _ _ _)

/-! ## The pipeline's proof data -/

/-- The proof data of the one pipeline on core `c`: the arrays as the region finds them; after the body at point `t`
    each input's buffer at its block and the result's at `out0_5` of the input blocks; no invariant; nothing owed. The
    flags array is read by four windows and is held at four quarter shares, one per window; the table is held whole
    (and the result, an output, is held whole whatever is said here). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the (empty) invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
import proofs.«181696_g53163105190342_cont_9to1_m_607_4_alg».proof.Proof.KernelIdealBody
import Idealize.ShloMosaic.Lib.Pipeline.Kit

/-!
# The run of the program: the launch, by the library's theorem for windows that share an array

The program is the one kernel region. The library's launch theorem for a kernel with no semaphore of its own whose
windows may share arrays takes, beside the body obligation, how the three buffers behind the six windows' arrays —
each whole, at the full share — make the proof data's arrays at entry: the flags buffer, read by four windows, is
split into its four quarter shares (halved, and each half halved again); the table's and the result's buffers are
handed over whole. The post reads every window's array at what the library computes from the proof data after the
last write-back; the two argument arrays are inputs, never written, so they end as they began.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The rounds library's launch element: every staging cell's owner at round 0 and a duty token for every transfer
    the pipeline issues. -/
def u₀ : UR sig nD τ := initOf (Pipeline.cells cfgs cellOf_inj) (Pipeline.launchToks cfgs cellOf_inj)

/-! ## The arrays at entry, from the buffers behind them -/

/-- The three buffers behind the windows' arrays, each whole at the full share, make the six windows' arrays at the
    shares the proof data names: the flags buffer's full share is its left and right halves, and each half its own
    left and right halves — the four windows' quarters. -/
theorem arrays_of_arrBufs (c : Dev nD) :
    (Pipeline.arrBufs spec0 c (V m c) : sProp 𝕄) ⊢ (dats m 0 c).arrays ((dats m 0 c).arrAt · 0) := by
  unfold Pipeline.arrBufs Dat.arrays
  rw [bigSep_W0, BI.bigSep_eq_bigSepL_of_eq [main_arg0, main_arg1, main_v0] (by decide) (by decide)]
  simp only [BI.bigSepL_cons_cons, BI.bigSepL_singleton]
  rw [(arr_whole0 0).set_eq_univ, (arr_whole0 4).set_eq_univ, (arr_whole0 5).set_eq_univ]
  change iprop((((c : Thread nD τ).loc main_arg0) ↦{fullShare} V m c main_arg0) ∗ (((c : Thread nD τ).loc main_arg1) ↦{fullShare} V m c main_arg1)
      ∗ (((c : Thread nD τ).loc main_v0) ↦{fullShare} V m c main_v0))
    ⊢ iprop((((c : Thread nD τ).loc main_arg0) ↦{fullShare.left.left} V m c main_arg0) ∗ (((c : Thread nD τ).loc main_arg0) ↦{fullShare.left.right} V m c main_arg0)
      ∗ (((c : Thread nD τ).loc main_arg0) ↦{fullShare.right.left} V m c main_arg0) ∗ (((c : Thread nD τ).loc main_arg0) ↦{fullShare.right.right} V m c main_arg0)
      ∗ (((c : Thread nD τ).loc main_arg1) ↦{fullShare} V m c main_arg1) ∗ (((c : Thread nD τ).loc main_v0) ↦{fullShare} V m c main_v0))
  iintro ⟨H0, H1, H2⟩
  ihave H0 := (pointsTo_share (PosShare.mem_left_op_right fullShare)).1 $$ H0
  icases H0 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [Hll]; · iexact Hll
  isplitl [Hlr]; · iexact Hlr
  isplitl [Hrl]; · iexact Hrl
  isplitl [Hrr]; · iexact Hrr
  isplitl [H1]; · iexact H1
  iexact H2

/-! ## The launch -/

/-- An array's contents after the run, as the library computes them from the proof data. -/
def finalA (c : Dev nD) (w : Fin cfg0.W) : Buf (Elt F) ((cfg0.win w).arr.view.loc (c : Thread nD τ)) :=
  (dats m 0 c).arrAt w cfg0.N

/-- The physical post: every window's array holds what the library computes it holds after the last write-back. -/
def QC : PUnit × MemSt nD τ sig (Elt F) → Prop := fun r =>
  ∀ (c : Dev nD) (w : Fin cfg0.W), r.2.mem ((cfg0.win w).arr.view.loc (c : Thread nD τ)) = finalA m c w

-- the launch theorem's implicit arguments are found by unifying its conclusion with this one, which takes unfolding plain
-- definitions in a metavariable's type
set_option backward.isDefEq.respectTransparency.types false in
/-- At the compiled mesh, for any float values, from any memory whose semaphore counters are zero: every weakly fair
    execution of the program terminates, nothing faults, and every window's array ends at the computed contents. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := arrays_of_arrBufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

/-! ## The frame -/

/-- The flags array (read through window 0, as through windows 1 to 3) and the table (window 4) are inputs: after
    the run they hold what they held. -/
theorem finalA_flags (c : Dev nD) : finalA m c (0 : Fin 6) = m ((c : Thread nD τ).loc main_arg0) :=
  ((dats (F := F) m 0 c).arrAt_in (0 : Fin 6) rfl _).trans (A_eq m c 0)
theorem finalA_table (c : Dev nD) : finalA m c (4 : Fin 6) = m ((c : Thread nD τ).loc main_arg1) :=
  ((dats (F := F) m 0 c).arrAt_in (4 : Fin 6) rfl _).trans (A_eq m c 4)

/-- The frame claim's statement, at any float instance: the program runs to the end, nothing faults, and its two
    argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (0 : Fin 6)).trans (finalA_flags m c), (h c (4 : Fin 6)).trans (finalA_table m c)⟩)
    (run_main m ρ)

end Cert.KernelIdeal.Hand

end
-- ==== Proof.FlagBagSpec.lean ====
import Idealize.ShloMosaic.PureOps.Ideal.Laws
import Idealize.ShloMosaic.Lib.ValueIdx

/-!
# The mean of the active embedding rows, on the extended reals

A flag is ACTIVE when it exceeds one half. For a row of 1000 flags and a column of the embedding table, the result
is the sum of the column's entries at the active flags, divided by the number of active flags or by one if there is
none. The kernel computes exactly this quotient. The reference guards it: where no flag of the row is active it
answers zero instead. The guard changes nothing: with no active flag every term of the sum has the factor zero, the
sum is zero, the divisor is one, and the quotient is zero already. (Zero times anything is zero on the extended
reals, so this needs nothing of the table's entries.)

The indicator of an active flag is a natural number, zero or one; both programs' conversions of the comparison's
bit to a float are that number (one reads the bit as an unsigned integer; the other widens it to 32 bits with zeros
and reads that as a signed integer, which for zero and one is the same).
-/

noncomputable section

namespace Cert.FlagBag

open Idealize.ShloMosaic Idealize.ShloMosaic.ValueIdx

/-- The float word `1.0` is the extended real one. -/
theorem ofBits_one_f32 : Ideal.ofBits .f32 0x3F800000#32 = 1 := by
  simp [Ideal.ofBits, Ideal.ieee]
  exact_mod_cast (by norm_num : ((8388608 : ℝ)) * ((2 : ℝ) ^ 23)⁻¹ = 1)

/-- The threshold: the value of the float word `0.5` (never evaluated: both programs compare against this word). -/
abbrev half : EReal := Ideal.ofBits .f32 0x3F000000#32

/-- Whether a flag is active, as a number: one if it exceeds the threshold, else zero. -/
def flagOn (x : EReal) : ℕ := if half < x then 1 else 0

/-- The indicator as an extended real. -/
def maskOf (x : EReal) : EReal := ((flagOn x : ℝ) : EReal)

/-- The comparison's bit read as an unsigned integer (the reference's conversion) is the indicator. -/
theorem mask_unsigned (x : EReal) :
    FloatOps.uitofp (F := Ideal) .f32 (FloatOps.cmpf (F := Ideal) (φ := .f32) .ogt x (FloatOps.ofBits .f32 0x3F000000#32)) = maskOf x := by
  show (((Ideal.cmp .ogt x half).toNat : ℝ) : EReal) = ((flagOn x : ℝ) : EReal)
  unfold Ideal.cmp flagOn
  by_cases h : half < x <;> simp [h]

/-- The comparison's bit widened to 32 bits with zeros and read as a signed integer (the kernel's conversion) is the
    indicator too. -/
theorem mask_signed (x : EReal) :
    FloatOps.sitofp (F := Ideal) .f32 ((FloatOps.cmpf (F := Ideal) (φ := .f32) .ogt x (FloatOps.ofBits .f32 0x3F000000#32)).setWidth 32) = maskOf x := by
  show ((((Ideal.cmp .ogt x half).setWidth 32).toInt : ℝ) : EReal) = ((flagOn x : ℝ) : EReal)
  unfold Ideal.cmp flagOn
  by_cases h : half < x <;> simp [h]

/-- The number of active flags of a row, as the sum of the indicators on the extended reals, is the natural number. -/
theorem sum_mask (row : Fin 1000 → EReal) : (∑ k, maskOf (row k)) = (((∑ k, flagOn (row k) : ℕ) : ℝ) : EReal) := by
  unfold maskOf
  induction (Finset.univ : Finset (Fin 1000)) using Finset.induction_on with
  | empty => simp
  | insert a s ha ih => rw [Finset.sum_insert ha, Finset.sum_insert ha, ih]; push_cast; rfl

/-- The mean of the table column's entries at the row's active flags (their sum over one, when none is active). -/
def rowMean (col row : Fin 1000 → EReal) : EReal :=
  Ideal.div (∑ k, maskOf (row k) * col k) (max (∑ k, maskOf (row k)) (Ideal.ofBits .f32 0x3F800000#32))

/-- With no active flag the mean is zero: every term of the sum has the factor zero, and the divisor is one. -/
theorem rowMean_of_none (col row : Fin 1000 → EReal) (h : ∀ k, flagOn (row k) = 0) : rowMean col row = 0 := by
  unfold rowMean
  have hm : ∀ k, maskOf (row k) = 0 := fun k => by unfold maskOf; rw [h k]; simp
  simp only [hm, zero_mul, Finset.sum_const_zero, ofBits_one_f32]
  rw [max_eq_right (by norm_num : (0 : EReal) ≤ 1)]
  unfold Ideal.div
  rw [if_neg (by norm_num : (1 : EReal) ≠ 0), zero_mul]

/-- The reference's guard is vacuous: selecting the mean where the count of active flags is positive, and zero
    elsewhere, is the mean. -/
theorem guarded_rowMean (col row : Fin 1000 → EReal) :
    Scalar.select (Ideal.cmp .ogt (∑ k, maskOf (row k)) 0) (rowMean col row) 0 = rowMean col row := by
  by_cases hpos : (0 : EReal) < ∑ k, maskOf (row k)
  · have : Ideal.cmp .ogt (∑ k, maskOf (row k)) 0 = 1#1 := by unfold Ideal.cmp; simp [hpos]
    rw [this, select_one]
  · have : Ideal.cmp .ogt (∑ k, maskOf (row k)) 0 = 0#1 := by unfold Ideal.cmp; simp [hpos]
    rw [this, select_zero]
    refine (rowMean_of_none col row fun k => ?_).symm
    rw [sum_mask] at hpos
    have h0 : (∑ k, flagOn (row k)) = 0 := by
      by_contra hne
      exact hpos (by exact_mod_cast Nat.pos_of_ne_zero hne)
    exact (Finset.sum_eq_zero_iff.mp h0) k (Finset.mem_univ k)

/-! ## The whole result, entry by entry -/

/-- The result array as ONE function of the flags matrix and the embedding table: entry `(t, d)` is the mean of
    column `d`'s entries at row `t`'s active flags. -/
def meanRows (flags : (⟨2, ![16384, 1000]⟩ : Shape).Idx → EReal) (tbl : (⟨2, ![1000, 64]⟩ : Shape).Idx → EReal) :
    (⟨2, ![16384, 64]⟩ : Shape).Idx → EReal := fun i =>
  rowMean (fun k => tbl (ix2 k (⟨(i 1).val, (i 1).isLt⟩ : Fin 64))) (fun k => flags (ix2 (⟨(i 0).val, (i 0).isLt⟩ : Fin 16384) k))

end Cert.FlagBag

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KernelIdealPayload.lean ====
import proofs.«181696_g53163105190342_cont_9to1_m_607_4_alg».proof.Proof.Gen.KernelIdeal.Skeleton
import proofs.«181696_g53163105190342_cont_9to1_m_607_4_alg».proof.Proof.FlagBagSpec
import proofs.«181696_g53163105190342_cont_9to1_m_607_4_alg».proof.Proof.LibDot
import Idealize.ShloMosaic.Lib.Pipeline.Value
import Idealize.ShloMosaic.Lib.ValueIdx
import Idealize.ShloMosaic.PureOps.Ideal.Laws

/-!
# What the kernel stores, entry by entry

Each of the body's four stores writes the same function of the embedding table and of ONE block of 512 rows of
flags: the block of indicators, its row sums as a column, the product of the indicator block with the table, and the
quotient of the product by the larger of the row sum and one. At entry `(p, q)` of the piece that is the mean of
column `q`'s entries at the active flags of the block's row `p`: the product there is the sum over the 1000 flags
(a plain rows-by-columns product into a zero accumulator), and the divisor is the row's sum of indicators, broadcast
along the 64 columns.
-/

noncomputable section

namespace Cert.KernelIdeal.HandValue

open Cert.KernelIdeal Cert.KernelIdeal.Gen Cert.FlagBag Cert.GNN
open Idealize.ShloMosaic Idealize.ShloMosaic.ValueIdx

variable {F : FTy → Type} [FloatOps F]

/-- The block of indicators the body builds from a block of flags. -/
def maskBlk (blk : Vec F S512x1000 .f32) : FVec F S512x1000 .f32 :=
  sitofp .f32 (extui 32 (cmpf .ogt blk (broadcast S512x1000 (Scalar.ofBits (F := F) .f32 0x3F000000#32))) natLt_1_32)

/-- Its row sums, as a column. -/
def countCol (msk : FVec F S512x1000 .f32) : FVec F S512x1 .f32 :=
  shapeCast S512x1 (multiReduction .add [1] S512 msk 0x00000000#32 reduces_S512x1000_S512 (.inl rfl) rfl) shapeCasts_S512_S512x1

/-- The piece a store writes: the indicator block times the table, over the larger of the row sum and one. -/
def meanBlock (tbl : Vec F S1000x64 .f32) (msk : FVec F S512x1000 .f32) (cnt : FVec F S512x1 .f32) : FVec F S512x64 .f32 :=
  divf (matmul (φ₁ := .f32) (φ₂ := .f32) dot_S512x1000_S1000x64_S512x64_1_0_0_1_n_n none msk tbl (constant S512x64 .f32 0x00000000#32))
    (broadcastTo S512x64 (maximumf cnt (broadcast S512x1 (Scalar.ofBits (F := F) .f32 0x3F800000#32))) broadcasts_S512x1_S512x64)

/-- The four stored pieces are that function of the table and the piece's flag block. -/
theorem pay3_eq (tbl : Vec F S1000x64 .f32) (blk : Vec F S512x1000 .f32) :
    k0_pay3 tbl blk = meanBlock tbl (maskBlk blk) (countCol (maskBlk blk)) := rfl
theorem pay4_eq (tbl : Vec F S1000x64 .f32) (blk : Vec F S512x1000 .f32) :
    k0_pay4 tbl blk = meanBlock tbl (maskBlk blk) (countCol (maskBlk blk)) := rfl
theorem pay2_eq (tbl : Vec F S1000x64 .f32) (blk : Vec F S512x1000 .f32) :
    k0_pay2 tbl blk = meanBlock tbl (maskBlk blk) (countCol (maskBlk blk)) := rfl
theorem pay1_eq (tbl : Vec F S1000x64 .f32) (blk : Vec F S512x1000 .f32) :
    k0_pay1 tbl (k0_pay5 blk) (k0_pay6 blk) (constant S512x64 .f32 0x00000000#32)
      = meanBlock tbl (maskBlk blk) (countCol (maskBlk blk)) := rfl

/-- An entry of the indicator block is the indicator of the flag there. -/
theorem maskBlk_apply (blk : Vec Ideal S512x1000 .f32) (j : S512x1000.Idx) : maskBlk (F := Ideal) blk j = maskOf (blk j) :=
  mask_signed (blk j)

/-- Row `p` of the column of row sums is the sum of row `p` of the block. -/
theorem countCol_apply (msk : FVec Ideal S512x1000 .f32) (p : Fin 512) :
    countCol (F := Ideal) msk (ix2 p (0 : Fin 1)) = ∑ k : Fin 1000, msk (ix2 p k) := by
  unfold countCol
  rw [shapeCast_apply _ shapeCasts_S512_S512x1 (ix2 p (0 : Fin 1)) (ix1 p)
    (by rw [Shape.rowMajor_val_one, Shape.rowMajor_val_two]; show p.val = p.val * 1 + 0; omega)]
  refine (Ideal.multiReduction_add_single msk _ reduces_S512x1000_S512 _ _ (ix1 p)).trans ?_
  refine Finset.sum_congr rfl fun k _ => congrArg msk ?_
  exact funext fun a => Fin.ext (by match a with | ⟨0, _⟩ => rfl | ⟨1, _⟩ => rfl)

/-- The printed dimension record of the product is the plain rows-by-columns one. -/
theorem dot_eq_plain : dot_S512x1000_S1000x64_S512x64_1_0_0_1_n_n = DotDims.plain 512 1000 64 := rfl

/-- Entry `(p, q)` of a stored piece: the mean of column `q` of the table at the active flags of row `p` of the block. -/
theorem meanBlock_apply (tbl : Vec Ideal S1000x64 .f32) (blk : Vec Ideal S512x1000 .f32) (p : Fin 512) (q : Fin 64) :
    meanBlock (F := Ideal) tbl (maskBlk blk) (countCol (maskBlk blk)) (ix2 p q)
      = rowMean (fun k => tbl (ix2 k q)) (fun k => blk (ix2 p k)) := by
  unfold meanBlock rowMean
  rw [divf_apply]
  rw [broadcastTo_apply _ broadcasts_S512x1_S512x64 (ix2 p q) (ix2 p (0 : Fin 1))
    (fun a => by match a with
      | ⟨0, _⟩ => show p.val = if (512 : Nat) = 1 then 0 else p.val; rw [if_neg (by decide)]
      | ⟨1, _⟩ => show (0 : Nat) = if (1 : Nat) = 1 then 0 else q.val; rw [if_pos rfl])]
  rw [maximumf_apply, broadcast_apply, countCol_apply]
  simp only [matmul]
  rw [dot_eq_plain, matmul_plain_zero_apply]
  simp only [maskBlk_apply]
  rfl

end Cert.KernelIdeal.HandValue

end
-- ==== Proof.KernelIdealValue.lean ====
import proofs.«181696_g53163105190342_cont_9to1_m_607_4_alg».proof.Proof.KernelIdealRun
import proofs.«181696_g53163105190342_cont_9to1_m_607_4_alg».proof.Proof.KernelIdealPayload
import Idealize.ShloMosaic.Lib.Pipeline.Value

/-!
# The result array after the run: the mean of the active rows

At point `t` the four flag windows hold the blocks of rows `512 * (4 t + j)`, `j = 0 … 3`, of the flags matrix, the
table's window holds the whole table, and the body's four stores fill the result's block with the four pieces at row
offsets `512 j`. The result's window writes that block back at rows `2048 t ..`. Row `512 j + p` of the block is row
`2048 t + 512 j + p = 512 (4 t + j) + p` of the array, which is the flags row the piece's entry was computed from: so
what point `t` writes back is its block of ONE whole-array function, the mean of the active rows. The eight blocks
cover the 16384 rows, so the array ends holding that function.
-/

set_option maxRecDepth 16384

noncomputable section

namespace Cert.KernelIdeal.HandValue

open Cert.KernelIdeal Cert.KernelIdeal.Gen Cert.KernelIdeal.Hand Cert.FlagBag
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: flag window `j`'s block index is four times the result's plus `j`;
    every window's column-block index is zero; the table's row-block index is zero; the result's is at most seven. -/
theorem idx_facts : ∀ t : Fin cfg0.N,
    win0_0.index t (0 : Fin 2) = 4 * win0_5.index t (0 : Fin 2) + 0 ∧ win0_0.index t (1 : Fin 2) = 0
    ∧ win0_1.index t (0 : Fin 2) = 4 * win0_5.index t (0 : Fin 2) + 1 ∧ win0_1.index t (1 : Fin 2) = 0
    ∧ win0_2.index t (0 : Fin 2) = 4 * win0_5.index t (0 : Fin 2) + 2 ∧ win0_2.index t (1 : Fin 2) = 0
    ∧ win0_3.index t (0 : Fin 2) = 4 * win0_5.index t (0 : Fin 2) + 3 ∧ win0_3.index t (1 : Fin 2) = 0
    ∧ win0_4.index t (0 : Fin 2) = 0 ∧ win0_4.index t (1 : Fin 2) = 0
    ∧ win0_5.index t (0 : Fin 2) ≤ 7 ∧ win0_5.index t (1 : Fin 2) = 0 :=
  (by decide +kernel : ∀ t : Fin grid0.N, _)

/-- Every one of the result's eight row blocks is some point's. -/
theorem idx_onto : ∀ q0 : Fin 8, ∃ t : Fin cfg0.N, win0_5.index t = ![q0.val, 0] :=
  (by decide +kernel : ∀ q0 : Fin 8, ∃ t : Fin grid0.N, win0_5.index t = ![q0.val, 0])

/-! ## The input blocks, read at an entry -/

/-- Row `p`, flag `k` of flag window 0's block at point `t` is row `512 * (its block index) + p` of the flags matrix. -/
theorem read_flags0 (c : Dev nD) (t : Fin cfg0.N) (p : Fin 512) (k : Fin 1000) (r : Fin 16384)
    (hr : r.val = win0_0.index t (0 : Fin 2) * 512 + p.val) (h1 : win0_0.index t (1 : Fin 2) = 0) :
    (iblk m c 0 t : Vec Ideal S512x1000 .f32) (ix2 p k) = V m c main_arg0 (ix2 r k) := by
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 512 + 1 * p.val = r.val; omega
  | ⟨1, _⟩ => show win0_0.index t (1 : Fin 2) * 1000 + 1 * k.val = k.val; omega

/-- Row `p`, flag `k` of flag window 1's block at point `t` is row `512 * (its block index) + p` of the flags matrix. -/
theorem read_flags1 (c : Dev nD) (t : Fin cfg0.N) (p : Fin 512) (k : Fin 1000) (r : Fin 16384)
    (hr : r.val = win0_1.index t (0 : Fin 2) * 512 + p.val) (h1 : win0_1.index t (1 : Fin 2) = 0) :
    (iblk m c 1 t : Vec Ideal S512x1000 .f32) (ix2 p k) = V m c main_arg0 (ix2 r k) := by
  show V m c main_arg0 (((cfg0.win 1).blk t).view.emb (ix2 p k)) = V m c main_arg0 (ix2 r k)
  refine congrArg (V m c main_arg0) (funext fun a => Fin.ext ?_)
  match a with
  | ⟨0, _⟩ => show win0_1.index t (0 : Fin 2) * 512 + 1 * p.val = r.val; omega
  | ⟨1, _⟩ => show win0_1.index t (1 : Fin 2) * 1000 + 1 * k.val = k.val; omega

/-- Row `p`, flag `k` of flag window 2's block at point `t` is row `512 * (its block index) + p` of the flags matrix. -/
theorem read_flags2 (c : Dev nD) (t : Fin cfg0.N) (p : Fin 512) (k : Fin 1000) (r : Fin 16384)
    (hr : r.val = win0_2.index t (0 : Fin 2) * 512 + p.val) (h1 : win0_2.index t (1 : Fin 2) = 0) :
    (iblk m c 2 t : Vec Ideal S512x1000 .f32) (ix2 p k) = V m c main_arg0 (ix2 r k) := by
  show V m c main_arg0 (((cfg0.win 2).blk t).view.emb (ix2 p k)) = V m c main_arg0 (ix2 r k)
  refine congrArg (V m c main_arg0) (funext fun a => Fin.ext ?_)
  match a with
  | ⟨0, _⟩ => show win0_2.index t (0 : Fin 2) * 512 + 1 * p.val = r.val; omega
  | ⟨1, _⟩ => show win0_2.index t (1 : Fin 2) * 1000 + 1 * k.val = k.val; omega

/-- Row `p`, flag `k` of flag window 3's block at point `t` is row `512 * (its block index) + p` of the flags matrix. -/
theorem read_flags3 (c : Dev nD) (t : Fin cfg0.N) (p : Fin 512) (k : Fin 1000) (r : Fin 16384)
    (hr : r.val = win0_3.index t (0 : Fin 2) * 512 + p.val) (h1 : win0_3.index t (1 : Fin 2) = 0) :
    (iblk m c 3 t : Vec Ideal S512x1000 .f32) (ix2 p k) = V m c main_arg0 (ix2 r k) := by
  show V m c main_arg0 (((cfg0.win 3).blk t).view.emb (ix2 p k)) = V m c main_arg0 (ix2 r k)
  refine congrArg (V m c main_arg0) (funext fun a => Fin.ext ?_)
  match a with
  | ⟨0, _⟩ => show win0_3.index t (0 : Fin 2) * 512 + 1 * p.val = r.val; omega
  | ⟨1, _⟩ => show win0_3.index t (1 : Fin 2) * 1000 + 1 * k.val = k.val; omega

/-- The table's window holds the table. -/
theorem read_table (c : Dev nD) (t : Fin cfg0.N) (k : Fin 1000) (q : Fin 64)
    (h0 : win0_4.index t (0 : Fin 2) = 0) (h1 : win0_4.index t (1 : Fin 2) = 0) :
    (iblk m c 4 t : Vec Ideal S1000x64 .f32) (ix2 k q) = V m c main_arg1 (ix2 k q) := by
  show V m c main_arg1 (((cfg0.win 4).blk t).view.emb (ix2 k q)) = V m c main_arg1 (ix2 k q)
  refine congrArg (V m c main_arg1) (funext fun a => Fin.ext ?_)
  match a with
  | ⟨0, _⟩ => show win0_4.index t (0 : Fin 2) * 1000 + 1 * k.val = k.val; omega
  | ⟨1, _⟩ => show win0_4.index t (1 : Fin 2) * 64 + 1 * q.val = q.val; omega

/-! ## One entry of one stored piece -/

/-- Entry `(p, q)` of the piece computed from a block of flags that is rows `r0 ..` of the flags matrix, and from a
    table block that is the table, is the mean of the active rows at any entry `i` of the result with row `r0 + p`
    and column `q`. -/
theorem piece_entry (flags : Vec Ideal S16384x1000 .f32) (tbl : Vec Ideal S1000x64 .f32)
    (fblk : Vec Ideal S512x1000 .f32) (tblk : Vec Ideal S1000x64 .f32) (r0 : Nat) (hr0 : r0 + 512 ≤ 16384)
    (hf : ∀ (p : Fin 512) (k : Fin 1000), fblk (ix2 p k) = flags (ix2 (⟨r0 + p.val, by have := p.isLt; omega⟩ : Fin 16384) k))
    (ht : ∀ (k : Fin 1000) (q : Fin 64), tblk (ix2 k q) = tbl (ix2 k q))
    (p : Fin 512) (q : Fin 64) (i : S16384x64.Idx) (hi0 : (i 0).val = r0 + p.val) (hi1 : (i 1).val = q.val) :
    meanBlock (F := Ideal) tblk (maskBlk fblk) (countCol (maskBlk fblk)) (ix2 p q) = meanRows flags tbl i := by
  rw [meanBlock_apply]
  unfold meanRows
  have ec : (⟨(i 1).val, (i 1).isLt⟩ : Fin 64) = q := Fin.ext hi1
  have er : (⟨(i 0).val, (i 0).isLt⟩ : Fin 16384) = ⟨r0 + p.val, by have := p.isLt; omega⟩ := Fin.ext hi0
  rw [ec, er]
  simp only [hf, ht]

/-! ## What a point writes back -/

/-- WHAT POINT `t` WRITES BACK is block `t` of the mean of the active rows of the argument arrays. -/
theorem flushed_eq (c : Dev nD) (t : Fin cfg0.N) :
    (dats m 0 c).flushed 5 t
      = ((cfg0.win 5).blk t).view.read (Elt Ideal) (meanRows (V m c main_arg0) (V m c main_arg1)) := by
  show (cfg0.win 5).cut (grid0.coords t) ((dats m 0 c).after 5 t) = _
  rw [after0_5]
  unfold out0_5
  simp only [View.ld_unit_zero (S := S512x1000) hz, View.ld_unit_zero (S := S1000x64) hz]
  rw [pay2_eq, pay1_eq, pay4_eq, pay3_eq]
  obtain ⟨e00, e01, e10, e11, e20, e21, e30, e31, e40, e41, e5b, e51⟩ := idx_facts t
  funext y
  show View.canon (Val := Elt Ideal) (s := S2048x64) (e := .f32) _ y = meanRows (V m c main_arg0) (V m c main_arg1) (((cfg0.win 5).blk t).view.emb y)
  refine View.canon_apply_of_pieces (Val := Elt Ideal) (e := .f32)
    (fun y : S2048x64.Idx => meanRows (V m c main_arg0) (V m c main_arg1) (((cfg0.win 5).blk t).view.emb y)) _ ?_ y (cover0_5 _ _ _ _ y)
  intro pc hpc
  simp only [List.mem_cons, List.mem_nil_iff, or_false] at hpc
  rcases hpc with rfl | rfl | rfl | rfl
  · -- the piece at rows 1536 .. 2047: flag window 3's block
    intro x
    obtain ⟨p, q, rfl⟩ : ∃ (p : Fin 512) (q : Fin 64), x = ix2 p q := ⟨x 0, x 1, eq_ix2 x⟩
    have hp : p.val < 512 := p.isLt
    refine piece_entry (V m c main_arg0) (V m c main_arg1) (iblk m c 3 t) (iblk m c 4 t)
      (win0_3.index t (0 : Fin 2) * 512) (by omega)
      (fun p' k => read_flags3 m c t p' k _ rfl e31) (fun k q' => read_table m c t k q' e40 e41) p q _ ?_ ?_
    · show win0_5.index t (0 : Fin 2) * 2048 + 1 * (1536 + 1 * p.val) = win0_3.index t (0 : Fin 2) * 512 + p.val; omega
    · show win0_5.index t (1 : Fin 2) * 64 + 1 * (0 + 1 * q.val) = q.val; omega
  · -- the piece at rows 1024 .. 1535: flag window 2's block
    intro x
    obtain ⟨p, q, rfl⟩ : ∃ (p : Fin 512) (q : Fin 64), x = ix2 p q := ⟨x 0, x 1, eq_ix2 x⟩
    have hp : p.val < 512 := p.isLt
    refine piece_entry (V m c main_arg0) (V m c main_arg1) (iblk m c 2 t) (iblk m c 4 t)
      (win0_2.index t (0 : Fin 2) * 512) (by omega)
      (fun p' k => read_flags2 m c t p' k _ rfl e21) (fun k q' => read_table m c t k q' e40 e41) p q _ ?_ ?_
    · show win0_5.index t (0 : Fin 2) * 2048 + 1 * (1024 + 1 * p.val) = win0_2.index t (0 : Fin 2) * 512 + p.val; omega
    · show win0_5.index t (1 : Fin 2) * 64 + 1 * (0 + 1 * q.val) = q.val; omega
  · -- the piece at rows 512 .. 1023: flag window 1's block
    intro x
    obtain ⟨p, q, rfl⟩ : ∃ (p : Fin 512) (q : Fin 64), x = ix2 p q := ⟨x 0, x 1, eq_ix2 x⟩
    have hp : p.val < 512 := p.isLt
    refine piece_entry (V m c main_arg0) (V m c main_arg1) (iblk m c 1 t) (iblk m c 4 t)
      (win0_1.index t (0 : Fin 2) * 512) (by omega)
      (fun p' k => read_flags1 m c t p' k _ rfl e11) (fun k q' => read_table m c t k q' e40 e41) p q _ ?_ ?_
    · show win0_5.index t (0 : Fin 2) * 2048 + 1 * (512 + 1 * p.val) = win0_1.index t (0 : Fin 2) * 512 + p.val; omega
    · show win0_5.index t (1 : Fin 2) * 64 + 1 * (0 + 1 * q.val) = q.val; omega
  · -- the piece at rows 0 .. 511: flag window 0's block
    intro x
    obtain ⟨p, q, rfl⟩ : ∃ (p : Fin 512) (q : Fin 64), x = ix2 p q := ⟨x 0, x 1, eq_ix2 x⟩
    have hp : p.val < 512 := p.isLt
    refine piece_entry (V m c main_arg0) (V m c main_arg1) (iblk m c 0 t) (iblk m c 4 t)
      (win0_0.index t (0 : Fin 2) * 512) (by omega)
      (fun p' k => read_flags0 m c t p' k _ rfl e01) (fun k q' => read_table m c t k q' e40 e41) p q _ ?_ ?_
    · show win0_5.index t (0 : Fin 2) * 2048 + 1 * (0 + 1 * p.val) = win0_0.index t (0 : Fin 2) * 512 + p.val; omega
    · show win0_5.index t (1 : Fin 2) * 64 + 1 * (0 + 1 * q.val) = q.val; omega

/-! ## The cover, and the array after the run -/

/-- An index of the result is in point `t`'s block iff each coordinate is in the block's range on its axis. -/
theorem mem_blk (t : Fin cfg0.N) (i : S16384x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v0).slice (win0_5.rect t)).set ↔ _
  rw [View.set_slice_whole, Rect.mem_set_unit]
  exact Iff.rfl

/-- Every entry of the result is in some point's block: row `r` is in block `r / 2048`. -/
theorem covered (i : S16384x64.Idx) : ∃ t : Fin cfg0.N, (cfg0.win 5).flush t = true ∧ i ∈ ((cfg0.win 5).blk t).view.set := by
  have hi0 : (i 0).val < 16384 := (i 0).isLt
  have hi1 : (i 1).val < 64 := (i 1).isLt
  obtain ⟨t, ht⟩ := idx_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 64 ≤ (i 1).val ∧ (i 1).val < win0_5.index t (1 : Fin 2) * 64 + 64; omega

/-- THE RESULT ARRAY after the run is the mean of the active rows of the argument arrays. -/
theorem final_result (c : Dev nD) :
    finalA m c (5 : Fin 6) = meanRows (m ((c : Thread nD τ).loc main_arg0)) (m ((c : Thread nD τ).loc main_arg1)) :=
  (dats m 0 c).arrAt_eq_of_cover 5 _ (fun t _ => flushed_eq m c t) covered

/-! ## The run, read -/

/-- The run re-posted: the result array at the mean of the active rows of the arguments, the arguments unchanged. -/
theorem run : θ_run defs (onTc (τ := τ) (main (F := Ideal))) ⟨m, fun _ => 0, ρ⟩ fun r => ∀ c : Dev nD,
      r.2.mem ((c.tc : Thread nD τ).loc main_v0) = meanRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c (5 : Fin 6)).trans (final_result m c), (h c (0 : Fin 6)).trans (finalA_flags m c),
      (h c (4 : Fin 6)).trans (finalA_table m c)⟩)
    (run_main m ρ)

end Cert.KernelIdeal.HandValue

end
-- ==== Proof.RefValue.lean ====
import proofs.«181696_g53163105190342_cont_9to1_m_607_4_alg».proof.Proof.RefRead
import proofs.«181696_g53163105190342_cont_9to1_m_607_4_alg».proof.Proof.FlagBagSpec

/-!
# The reference computes the mean of the active rows

Read one operation at a time, the reference's result at entry `(t, d)` is: the guard (is the row's count of active
flags positive?) selecting between the quotient — the product of the indicator row with the table's column, over the
larger of the count and one — and zero. The count is the row's sum of indicators started from zero; the product is the
sum over the 1000 flags. With the indicator recognised, that is the guarded mean, and the guard is vacuous.
-/

noncomputable section

namespace Cert.ReferenceIdeal.RefValue

open Cert.ReferenceIdeal Cert.ReferenceIdeal.Gen Cert.ReferenceIdeal.ReadP Cert.FlagBag
open Idealize.ShloMosaic Idealize.ShloMosaic.ValueIdx

/-- Row `t`, flag `k` of the flags matrix, as the count's reduction indexes it from the result's entry; -/
theorem idx_count (i : S16384x64.Idx) (k : Fin 1000) :
    idx_main_v3 (idx_main_v4 (idx_main_v10 i)) k = ix2 (⟨(i 0).val, (i 0).isLt⟩ : Fin 16384) k :=
  funext fun a => Fin.ext (by match a with | ⟨0, _⟩ => rfl | ⟨1, _⟩ => rfl)
/-- the same through the guard's broadcast; -/
theorem idx_guard (i : S16384x64.Idx) (k : Fin 1000) :
    idx_main_v3 (idx_main_v4 (idx_main_call0_v0 i)) k = ix2 (⟨(i 0).val, (i 0).isLt⟩ : Fin 16384) k :=
  funext fun a => Fin.ext (by match a with | ⟨0, _⟩ => rfl | ⟨1, _⟩ => rfl)
/-- and as the product's left operand indexes it; -/
theorem idx_lhs (i : S16384x64.Idx) (k : Fin 1000) :
    lidx_main_v5 i k = ix2 (⟨(i 0).val, (i 0).isLt⟩ : Fin 16384) k :=
  funext fun a => Fin.ext (by match a with | ⟨0, _⟩ => rfl | ⟨1, _⟩ => rfl)
/-- entry `(k, d)` of the table as the product's right operand indexes it. -/
theorem idx_rhs (i : S16384x64.Idx) (k : Fin 1000) :
    ridx_main_v5 i k = ix2 k (⟨(i 1).val, (i 1).isLt⟩ : Fin 64) :=
  funext fun a => Fin.ext (by match a with | ⟨0, _⟩ => rfl | ⟨1, _⟩ => rfl)

/-- The indicator stage at an entry of the flags matrix. -/
theorem mask_stage (x0 : (⟨S16384x1000, .f32⟩ : BufTy).Contents (Elt Ideal)) (j : S16384x1000.Idx) :
    val_main_v2 (F := Ideal) x0 j = maskOf (x0 j) := by
  rw [val_main_v2_apply, val_main_v1_apply, val_main_v0_apply, val_main_cst_apply]
  exact mask_unsigned (x0 j)

/-- The reference's last stage is the mean of the active rows, entry by entry. -/
theorem result_eq (x0 : (⟨S16384x1000, .f32⟩ : BufTy).Contents (Elt Ideal)) (x1 : (⟨S1000x64, .f32⟩ : BufTy).Contents (Elt Ideal)) :
    val_main_v13 (F := Ideal) x0 x1 = meanRows x0 x1 := by
  funext i
  simp only [val_main_v13_apply, val_main_call0_v0_apply, val_main_v7_apply, val_main_v11_apply, val_main_v5_apply,
    val_main_v10_apply, val_main_v9_apply, val_main_v4_apply, val_main_v3_apply, val_main_v6_apply, val_main_v8_apply,
    val_main_v12_apply, val_main_cst_0_apply, val_main_cst_1_apply, val_main_cst_2_apply, val_main_cst_3_apply,
    mask_stage, idx_count, idx_guard, idx_lhs, idx_rhs]
  simp only [Ideal.cmpf_def, Ideal.hostDivf_def, Ideal.maximumf_def, Ideal.ofBits_def, Ideal.ofBits_zero_f32, zero_add]
  exact guarded_rowMean _ _

end Cert.ReferenceIdeal.RefValue

end
-- ==== Proof.lean ====
/-
  The kernel computes, for each of 16384 rows of 1000 flags, the mean of the rows of a 1000 × 64 embedding table at
  the row's ACTIVE flags (those exceeding one half): the sum of the active table rows divided by their number, or by
  one when no flag is active. It does so in one pipelined region of eight grid points. The flags matrix is handed to
  the region four times, as four windows of 512 rows each whose block indices are `4 t`, `4 t + 1`, `4 t + 2`,
  `4 t + 3` at point `t`; the table is a fifth window, fetched once; the result's window is a block of 2048 rows.
  The body turns each flag block into a block of zero-one indicators, sums each row of it, multiplies it with the
  table, divides by the larger of the row sum and one, and stores the four 512-row pieces one under the other.

  The reference computes the same quotient on the whole arrays and then guards it: where a row's count of active flags
  is not positive it answers zero. The guard is vacuous. If no flag of a row is active, every indicator of the row is
  zero, every term of the row's product with a table column is zero times something, which is zero on the extended
  reals, the divisor is the larger of zero and one, and zero divided by one is zero. So both programs compute the one
  function `meanRows` of the two argument arrays, entry by entry, and the equality needs nothing of the inputs.

  The frames. Four windows of the region share one array, so the array is held at four quarter shares, one per
  window; the region is launched with the library's theorem for windows that share arrays, and the body is run once,
  symbolically, at a generic point. The same text serves the word-level program and the idealized one. The
  reference is a straight-line host program: its frame is its run with the result dropped.

  `preserves`: the idealization rewrote nothing, and the conjunct is `True`.
-/
import proofs.«181696_g53163105190342_cont_9to1_m_607_4_alg».proof.Defs
import proofs.«181696_g53163105190342_cont_9to1_m_607_4_alg».proof.Proof.Gen.Kernel
import proofs.«181696_g53163105190342_cont_9to1_m_607_4_alg».proof.Proof.Gen.KernelIdeal
import proofs.«181696_g53163105190342_cont_9to1_m_607_4_alg».proof.Proof.Gen.ReferenceIdeal
import proofs.«181696_g53163105190342_cont_9to1_m_607_4_alg».proof.Proof.Gen.Pre_finite_inputs
import proofs.«181696_g53163105190342_cont_9to1_m_607_4_alg».proof.Proof.KernelRun
import proofs.«181696_g53163105190342_cont_9to1_m_607_4_alg».proof.Proof.KernelIdealValue
import proofs.«181696_g53163105190342_cont_9to1_m_607_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its two argument arrays unchanged. -/
theorem frame_kernel : Cert.frame_Kernel := fun m ρ _ => Cert.Kernel.Hand.frame m ρ

/-- The same of the idealized kernel. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both idealized programs end with the result array at the mean of the
    active rows of the arguments: the kernel's run read block by block, the reference's read operation by operation
    with its guard shown vacuous. -/
theorem algebraic : Cert.algebraic_KernelIdeal_ReferenceIdeal := by
  intro m ρ m' ρ' _ hagree
  refine ⟨fun c => Cert.FlagBag.meanRows (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
